-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1088000x128 : Shape := ⟨2, ![1088000, 128]⟩
abbrev S1024000 : Shape := ⟨1, ![1024000]⟩
abbrev S128x128 : Shape := ⟨2, ![128, 128]⟩
abbrev S128 : Shape := ⟨1, ![128]⟩
abbrev S_ : Shape := ⟨0, ![]⟩

class Facts : Prop where
  bcast_S_S1088000x128 : S_.BroadcastsInDim S1088000x128 (![] : Fin 0 → Fin S1088000x128.rank)
  reducesTo_S1088000x128_S_d0_1 : S1088000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1088000x128 .f32) (main_arg1 : IVec S1024000 32) (main_arg2 : IVec S1024000 32) (main_arg3 : FVec F S128x128 .f32) (main_arg4 : FVec F S128x128 .f32) (main_arg5 : FVec F S128 .f32) : IVec S_ 1 :=
  let main_v0 : FVec F S1088000x128 .f32 := Host.absf main_arg0
  let main_cst : FVec F S_ .f32 := constant S_ .f32 0x7F800000#32
  let main_v1 : FVec F S1088000x128 .f32 := broadcastInDim S1088000x128 ![] bcast_S_S1088000x128 main_cst
  let main_v2 : IVec S1088000x128 1 := cmpf .olt main_v0 main_v1
  let main_c : IVec S_ 1 := constantI S_ 1 1#1
  let main_v3 : IVec S_ 1 := (fun x v => Host.reduce IntOp.andi x v reducesTo_S1088000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1088000x128 : Shape := ⟨2, ![1088000, 128]⟩
abbrev S1024000 : Shape := ⟨1, ![1024000]⟩
abbrev S128x128 : Shape := ⟨2, ![128, 128]⟩
abbrev S128 : Shape := ⟨1, ![128]⟩
abbrev S_ : Shape := ⟨0, ![]⟩
abbrev S1024000x1 : Shape := ⟨2, ![1024000, 1]⟩
abbrev S1024000x128 : Shape := ⟨2, ![1024000, 128]⟩
abbrev S64000x128 : Shape := ⟨2, ![64000, 128]⟩
abbrev S4x272000x128 : Shape := ⟨3, ![4, 272000, 128]⟩
abbrev S4x16000x128 : Shape := ⟨3, ![4, 16000, 128]⟩
abbrev S1x128 : Shape := ⟨2, ![1, 128]⟩
abbrev S4000x128 : Shape := ⟨2, ![4000, 128]⟩

abbrev nBuf : Space → Nat
  | .hbm => 53
  | .vmem => 9
  | .smem => 0
  | _ => 0

abbrev bufTy : (tb : Table) → Fin (tcTables nBuf tb) → BufTy
  | .hbm, ⟨0, _⟩ => ⟨S1088000x128, .f32⟩
  | .hbm, ⟨1, _⟩ => ⟨S1024000, .i32⟩
  | .hbm, ⟨2, _⟩ => ⟨S1024000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S1024000, .i32⟩
  | .hbm, ⟨7, _⟩ => ⟨S_, .i32⟩
  | .hbm, ⟨8, _⟩ => ⟨S_, .i32⟩
  | .hbm, ⟨9, _⟩ => ⟨S1024000, .i32⟩
  | .hbm, ⟨10, _⟩ => ⟨S1024000, .i32⟩
  | .hbm, ⟨11, _⟩ => ⟨S1024000, .i32⟩
  | .hbm, ⟨12, _⟩ => ⟨S_, .i32⟩
  | .hbm, ⟨13, _⟩ => ⟨S1024000, .i32⟩
  | .hbm, ⟨14, _⟩ => ⟨S1024000, .i1⟩
  | .hbm, ⟨15, _⟩ => ⟨S1024000, .i32⟩
  | .hbm, ⟨16, _⟩ => ⟨S1024000, .i32⟩
  | .hbm, ⟨17, _⟩ => ⟨S_, .i32⟩
  | .hbm, ⟨18, _⟩ => ⟨S1024000, .i32⟩
  | .hbm, ⟨19, _⟩ => ⟨S1024000, .i1⟩
  | .hbm, ⟨20, _⟩ => ⟨S1024000, .i1⟩
  | .hbm, ⟨21, _⟩ => ⟨S_, .i32⟩
  | .hbm, ⟨22, _⟩ => ⟨S1024000, .i32⟩
  | .hbm, ⟨23, _⟩ => ⟨S1024000, .i32⟩
  | .hbm, ⟨24, _⟩ => ⟨S1024000, .i32⟩
  | .hbm, ⟨25, _⟩ => ⟨S_, .i32⟩
  | .hbm, ⟨26, _⟩ => ⟨S1024000, .i32⟩
  | .hbm, ⟨27, _⟩ => ⟨S1024000, .i32⟩
  | .hbm, ⟨28, _⟩ => ⟨S1024000, .i32⟩
  | .hbm, ⟨29, _⟩ => ⟨S_, .i32⟩
  | .hbm, ⟨30, _⟩ => ⟨S1024000, .i32⟩
  | .hbm, ⟨31, _⟩ => ⟨S1024000, .i32⟩
  | .hbm, ⟨32, _⟩ => ⟨S1024000, .i32⟩
  | .hbm, ⟨33, _⟩ => ⟨S_, .i32⟩
  | .hbm, ⟨34, _⟩ => ⟨S1024000, .i32⟩
  | .hbm, ⟨35, _⟩ => ⟨S1024000, .i1⟩
  | .hbm, ⟨36, _⟩ => ⟨S_, .i32⟩
  | .hbm, ⟨37, _⟩ => ⟨S1024000, .i32⟩
  | .hbm, ⟨38, _⟩ => ⟨S1024000, .i32⟩
  | .hbm, ⟨39, _⟩ => ⟨S1024000, .i32⟩
  | .hbm, ⟨40, _⟩ => ⟨S1024000x1, .i32⟩
  | .hbm, ⟨41, _⟩ => ⟨S1024000x128, .f32⟩
  | .hbm, ⟨42, _⟩ => ⟨S_, .f32⟩
  | .hbm, ⟨43, _⟩ => ⟨S64000x128, .f32⟩
  | .hbm, ⟨44, _⟩ => ⟨S1024000x1, .i32⟩
  | .hbm, ⟨45, _⟩ => ⟨S64000x128, .f32⟩
  | .hbm, ⟨46, _⟩ => ⟨S4x272000x128, .f32⟩
  | .hbm, ⟨47, _⟩ => ⟨S4x16000x128, .f32⟩
  | .hbm, ⟨48, _⟩ => ⟨S64000x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S64000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | _, _ => ⟨S1088000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_c_3 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S64000x128 : S_.BroadcastsInDim S64000x128 (![] : Fin 0 → Fin S64000x128.rank)
  shapeCasts_S1088000x128_S4x272000x128 : S1088000x128.ShapeCasts S4x272000x128
  slices_S4x272000x128_S4x16000x128_0_0_0 : S4x272000x128.Slices ![0, 0, 0] S4x16000x128
  shapeCasts_S4x16000x128_S64000x128 : S4x16000x128.ShapeCasts S64000x128
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S1088000x128_S1024000x1_S1024000x128_1_0_n_n_0_1_1128_wf : GatherDims.WF S1088000x128 S1024000x1 S1024000x128 [1] [0] [] [0] [] 1 ![1, 128]
  scatter_S64000x128_S1024000x1_S1024000x128_1_0_0_1_wf : ScatterDims.WF S64000x128 S1024000x1 S1024000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S64000x128.size a
  hwx0_0 : ∀ i : grid0.Coords, EltTy.bits .f32 = 32 ∨ (Rect.block (s := S64000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S64000x128.size a
  hwx0_1 : ∀ i : grid0.Coords, EltTy.bits .f32 = 32 ∨ (Rect.block (s := S64000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S64000x128.size a
  hwx0_5 : ∀ i : grid0.Coords, EltTy.bits .f32 = 32 ∨ (Rect.block (s := S64000x128) S4000x128.size (cc0_transform_5 i) (hinb0_5 i)).WholeWords (EltTy.packing .f32)

variable [Facts₀]

def gather_S1088000x128_S1024000x1_S1024000x128_1_0_n_n_0_1_1128 : GatherDims S1088000x128 S1024000x1 S1024000x128 where
  offsetDims := [1]
  collapsedSliceDims := [0]
  operandBatchingDims := []
  startIndicesBatchingDims := []
  startIndexMap := [0]
  indexVectorDim := 1
  sliceSizes := ![1, 128]
  wf := gather_S1088000x128_S1024000x1_S1024000x128_1_0_n_n_0_1_1128_wf
def scatter_S64000x128_S1024000x1_S1024000x128_1_0_0_1 : ScatterDims S64000x128 S1024000x1 S1024000x128 where
  updateWindowDims := [1]
  insertedWindowDims := [0]
  scatterDimsToOperandDims := [0]
  indexVectorDim := 1
  wf := scatter_S64000x128_S1024000x1_S1024000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v17) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1088000x128 : Shape := ⟨2, ![1088000, 128]⟩
abbrev S1024000 : Shape := ⟨1, ![1024000]⟩
abbrev S128x128 : Shape := ⟨2, ![128, 128]⟩
abbrev S128 : Shape := ⟨1, ![128]⟩
abbrev S_ : Shape := ⟨0, ![]⟩
abbrev S1024000x1 : Shape := ⟨2, ![1024000, 1]⟩
abbrev S1024000x128 : Shape := ⟨2, ![1024000, 128]⟩
abbrev S64000x128 : Shape := ⟨2, ![64000, 128]⟩
abbrev S4x272000x128 : Shape := ⟨3, ![4, 272000, 128]⟩
abbrev S4x16000x128 : Shape := ⟨3, ![4, 16000, 128]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S1088000x128, .f32⟩
  | .hbm, ⟨1, _⟩ => ⟨S1024000, .i32⟩
  | .hbm, ⟨2, _⟩ => ⟨S1024000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S1024000, .i32⟩
  | .hbm, ⟨7, _⟩ => ⟨S_, .i32⟩
  | .hbm, ⟨8, _⟩ => ⟨S_, .i32⟩
  | .hbm, ⟨9, _⟩ => ⟨S1024000, .i32⟩
  | .hbm, ⟨10, _⟩ => ⟨S1024000, .i32⟩
  | .hbm, ⟨11, _⟩ => ⟨S1024000, .i32⟩
  | .hbm, ⟨12, _⟩ => ⟨S_, .i32⟩
  | .hbm, ⟨13, _⟩ => ⟨S1024000, .i32⟩
  | .hbm, ⟨14, _⟩ => ⟨S1024000, .i1⟩
  | .hbm, ⟨15, _⟩ => ⟨S1024000, .i32⟩
  | .hbm, ⟨16, _⟩ => ⟨S1024000, .i32⟩
  | .hbm, ⟨17, _⟩ => ⟨S_, .i32⟩
  | .hbm, ⟨18, _⟩ => ⟨S1024000, .i32⟩
  | .hbm, ⟨19, _⟩ => ⟨S1024000, .i1⟩
  | .hbm, ⟨20, _⟩ => ⟨S1024000, .i1⟩
  | .hbm, ⟨21, _⟩ => ⟨S_, .i32⟩
  | .hbm, ⟨22, _⟩ => ⟨S1024000, .i32⟩
  | .hbm, ⟨23, _⟩ => ⟨S1024000, .i32⟩
  | .hbm, ⟨24, _⟩ => ⟨S1024000, .i32⟩
  | .hbm, ⟨25, _⟩ => ⟨S_, .i32⟩
  | .hbm, ⟨26, _⟩ => ⟨S1024000, .i32⟩
  | .hbm, ⟨27, _⟩ => ⟨S1024000, .i32⟩
  | .hbm, ⟨28, _⟩ => ⟨S1024000, .i32⟩
  | .hbm, ⟨29, _⟩ => ⟨S_, .i32⟩
  | .hbm, ⟨30, _⟩ => ⟨S1024000, .i32⟩
  | .hbm, ⟨31, _⟩ => ⟨S1024000, .i32⟩
  | .hbm, ⟨32, _⟩ => ⟨S1024000, .i32⟩
  | .hbm, ⟨33, _⟩ => ⟨S_, .i32⟩
  | .hbm, ⟨34, _⟩ => ⟨S1024000, .i32⟩
  | .hbm, ⟨35, _⟩ => ⟨S1024000, .i1⟩
  | .hbm, ⟨36, _⟩ => ⟨S_, .i32⟩
  | .hbm, ⟨37, _⟩ => ⟨S1024000, .i32⟩
  | .hbm, ⟨38, _⟩ => ⟨S1024000, .i32⟩
  | .hbm, ⟨39, _⟩ => ⟨S1024000, .i32⟩
  | .hbm, ⟨40, _⟩ => ⟨S1024000x1, .i32⟩
  | .hbm, ⟨41, _⟩ => ⟨S1024000x128, .f32⟩
  | .hbm, ⟨42, _⟩ => ⟨S_, .f32⟩
  | .hbm, ⟨43, _⟩ => ⟨S64000x128, .f32⟩
  | .hbm, ⟨44, _⟩ => ⟨S1024000x1, .i32⟩
  | .hbm, ⟨45, _⟩ => ⟨S64000x128, .f32⟩
  | .hbm, ⟨46, _⟩ => ⟨S_, .f32⟩
  | .hbm, ⟨47, _⟩ => ⟨S64000x128, .f32⟩
  | .hbm, ⟨48, _⟩ => ⟨S64000x128, .f32⟩
  | .hbm, ⟨49, _⟩ => ⟨S128x128, .f32⟩
  | .hbm, ⟨50, _⟩ => ⟨S64000x128, .f32⟩
  | .hbm, ⟨51, _⟩ => ⟨S4x272000x128, .f32⟩
  | .hbm, ⟨52, _⟩ => ⟨S4x16000x128, .f32⟩
  | .hbm, ⟨53, _⟩ => ⟨S64000x128, .f32⟩
  | .hbm, ⟨54, _⟩ => ⟨S128x128, .f32⟩
  | .hbm, ⟨55, _⟩ => ⟨S64000x128, .f32⟩
  | .hbm, ⟨56, _⟩ => ⟨S1x128, .f32⟩
  | .hbm, ⟨57, _⟩ => ⟨S64000x128, .f32⟩
  | .hbm, ⟨58, _⟩ => ⟨S64000x128, .f32⟩
  | .hbm, ⟨59, _⟩ => ⟨S64000x128, .f32⟩
  | _, _ => ⟨S1088000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_c_3 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩

abbrev nD : Nat := 1
abbrev τ : Topo := Topo.v7x

variable {F : FTy → Type} [FloatOps F]

class Facts₀ : Prop where
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S64000x128 : S_.BroadcastsInDim S64000x128 (![] : Fin 0 → Fin S64000x128.rank)
  transposes_S128x128_S128x128_1_0 : S128x128.Transposes [1, 0] S128x128
  shapeCasts_S1088000x128_S4x272000x128 : S1088000x128.ShapeCasts S4x272000x128
  slices_S4x272000x128_S4x16000x128_0_0_0 : S4x272000x128.Slices ![0, 0, 0] S4x16000x128
  shapeCasts_S4x16000x128_S64000x128 : S4x16000x128.ShapeCasts S64000x128
  bcast_S128_S1x128_1 : S128.BroadcastsInDim S1x128 (![1] : Fin 1 → Fin S1x128.rank)
  bcast_S1x128_S64000x128_0_1 : S1x128.BroadcastsInDim S64000x128 (![0, 1] : Fin 2 → Fin S64000x128.rank)
  gather_S1088000x128_S1024000x1_S1024000x128_1_0_n_n_0_1_1128_wf : GatherDims.WF S1088000x128 S1024000x1 S1024000x128 [1] [0] [] [0] [] 1 ![1, 128]
  scatter_S64000x128_S1024000x1_S1024000x128_1_0_0_1_wf : ScatterDims.WF S64000x128 S1024000x1 S1024000x128 [1] [0] [0] 1
  dot_S64000x128_S128x128_S64000x128_1_0_0_1_n_n_wf : DotDims.WF S64000x128 S128x128 S64000x128 [1] [0] [0] [1] [] []

variable [Facts₀]

def gather_S1088000x128_S1024000x1_S1024000x128_1_0_n_n_0_1_1128 : GatherDims S1088000x128 S1024000x1 S1024000x128 where
  offsetDims := [1]
  collapsedSliceDims := [0]
  operandBatchingDims := []
  startIndicesBatchingDims := []
  startIndexMap := [0]
  indexVectorDim := 1
  sliceSizes := ![1, 128]
  wf := gather_S1088000x128_S1024000x1_S1024000x128_1_0_n_n_0_1_1128_wf
def scatter_S64000x128_S1024000x1_S1024000x128_1_0_0_1 : ScatterDims S64000x128 S1024000x1 S1024000x128 where
  updateWindowDims := [1]
  insertedWindowDims := [0]
  scatterDimsToOperandDims := [0]
  indexVectorDim := 1
  wf := scatter_S64000x128_S1024000x1_S1024000x128_1_0_0_1_wf
def dot_S64000x128_S128x128_S64000x128_1_0_0_1_n_n : DotDims S64000x128 S128x128 S64000x128 where
  lhsContracting := [1]
  rhsContracting := [0]
  lhsNonContracting := [0]
  rhsNonContracting := [1]
  lhsBatch := []
  rhsBatch := []
  wf := dot_S64000x128_S128x128_S64000x128_1_0_0_1_n_n_wf

class Facts : Prop extends Facts₀ where

variable [Facts]
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Literals.lean ====
/-
  The two float literals on which the kernel and the reference differ, as the extended reals their patterns denote.

  The kernel scales the aggregated neighbour rows by the literal 0.0625; the reference divides them by the literal
  16.0.  Both are exact powers of two, so the first denotes the real 1/16 and the second the real 16, and division
  by a non-zero real is multiplication by its reciprocal on every extended real, the two infinities included.
  Hence dividing by the one literal and multiplying by the other are the same operation on the extended reals.
-/
import Idealize.ShloMosaic.PureOps.Ideal

noncomputable section

namespace Cert.Literals

open Idealize.ShloMosaic

/-- The pattern of `16.0` denotes the real `16`. -/
theorem ofBits_sixteen : Ideal.ofBits .f32 0x41800000#32 = ((16 : ℝ) : EReal) := by
  simp [Ideal.ofBits, Ideal.ieee, -EReal.coe_mul]; norm_num

/-- The pattern of `0.0625` denotes the real `1 / 16`. -/
theorem ofBits_sixteenth : Ideal.ofBits .f32 0x3D800000#32 = ((1 / 16 : ℝ) : EReal) := by
  simp [Ideal.ofBits, Ideal.ieee, -EReal.coe_mul]; norm_num

/-- Dividing an extended real by `16.0` is multiplying it by `0.0625`. -/
theorem div_sixteen (x : EReal) :
    Ideal.div x (Ideal.ofBits .f32 0x41800000#32) = x * Ideal.ofBits .f32 0x3D800000#32 := by
  rw [ofBits_sixteen, ofBits_sixteenth]
  exact Ideal.div_coe (by norm_num) x

end Cert.Literals

end
-- ==== Proof.MeanLayer.lean ====
/-
  The mean-aggregation layer's dense tail as one function, index by index.

  Given the summed neighbour rows `h` and the destination rows `f` (both with 128 columns), the two transposed
  weight matrices `wn` and `ws` (128 by 128) and the bias `b` laid out as one row of 128, the layer's entry at
  row `p` and column `q` is

      (∑ k, f(p, k) · ws(k, q)  +  b(0, q))  +  ∑ k, (h(p, k) · 1/16) · wn(k, q)

  on the extended reals, the sums over the 128 columns.  The kernel computes it from a block of rows: it scales the
  neighbour block by the literal 0.0625, takes both products on the matrix unit into a zero accumulator, adds the
  bias row broadcast down the block and then the neighbour product.  The reference computes it on whole arrays: it
  divides the neighbour rows by the literal 16.0 and takes both products as host contractions.  At the ideal values a
  change of float format is the identity, both kinds of product are the plain sum over the contracted column
  (left axis 1 against right axis 0), and dividing by 16 is multiplying by 1/16, so both are this entry.  Only
  commutativity-free rewriting is used: no sum is reordered and nothing is distributed, so no finiteness is needed.
-/
import Idealize.ShloMosaic.PureOps.Ideal.Laws
import Idealize.ShloMosaic.Lib.ValueIdx
import proofs.«113063_j54494545052116_1_alg».proof.Proof.LibPlainDot
import proofs.«113063_j54494545052116_1_alg».proof.Proof.Literals

noncomputable section

namespace Cert.MeanLayer

open Idealize.ShloMosaic Idealize.ShloMosaic.ValueIdx

variable {R : Nat}

/-- The layer's entry at row `p`, column `q`. -/
def entry (h f : (⟨2, ![R, 128]⟩ : Shape).Idx → EReal) (wn ws : (⟨2, ![128, 128]⟩ : Shape).Idx → EReal)
    (b : (⟨2, ![1, 128]⟩ : Shape).Idx → EReal) (p : Fin R) (q : Fin 128) : EReal :=
  (∑ k : Fin 128, f (ix2 p k) * ws (ix2 k q) + b (ix2 (0 : Fin 1) q))
    + ∑ k : Fin 128, (h (ix2 p k) * Ideal.ofBits .f32 0x3D800000#32) * wn (ix2 k q)

/-- The layer's result array: its entry at every index. -/
def layer (h f : (⟨2, ![R, 128]⟩ : Shape).Idx → EReal) (wn ws : (⟨2, ![128, 128]⟩ : Shape).Idx → EReal)
    (b : (⟨2, ![1, 128]⟩ : Shape).Idx → EReal) : (⟨2, ![R, 128]⟩ : Shape).Idx → EReal :=
  fun i => entry h f wn ws b (i 0) (i 1)

/-- The entry at `(p, q)` reads only row `p` of the neighbour and destination rows, column `q` of the two weight
    matrices and entry `q` of the bias row: two families of arrays that agree there have the same entry, whatever
    their numbers of rows. -/
theorem entry_congr {R' : Nat} (h f : (⟨2, ![R, 128]⟩ : Shape).Idx → EReal) (h' f' : (⟨2, ![R', 128]⟩ : Shape).Idx → EReal)
    (wn ws wn' ws' : (⟨2, ![128, 128]⟩ : Shape).Idx → EReal) (b b' : (⟨2, ![1, 128]⟩ : Shape).Idx → EReal)
    (p : Fin R) (p' : Fin R') (q q' : Fin 128)
    (hh : ∀ k : Fin 128, h (ix2 p k) = h' (ix2 p' k)) (hf : ∀ k : Fin 128, f (ix2 p k) = f' (ix2 p' k))
    (hwn : ∀ k : Fin 128, wn (ix2 k q) = wn' (ix2 k q')) (hws : ∀ k : Fin 128, ws (ix2 k q) = ws' (ix2 k q'))
    (hb : b (ix2 (0 : Fin 1) q) = b' (ix2 (0 : Fin 1) q')) :
    entry h f wn ws b p q = entry h' f' wn' ws' b' p' q' := by
  unfold entry
  rw [hb]
  refine congrArg₂ (· + ·) (congrArg (· + b' (ix2 (0 : Fin 1) q')) (Finset.sum_congr rfl fun k _ => ?_))
    (Finset.sum_congr rfl fun k _ => ?_)
  · rw [hf k, hws k]
  · rw [hh k, hwn k]

theorem layer_apply (h f : (⟨2, ![R, 128]⟩ : Shape).Idx → EReal) (wn ws : (⟨2, ![128, 128]⟩ : Shape).Idx → EReal)
    (b : (⟨2, ![1, 128]⟩ : Shape).Idx → EReal) (p : Fin R) (q : Fin 128) :
    layer h f wn ws b (ix2 p q) = entry h f wn ws b p q := rfl

/-- A matrix-unit product into the zero accumulator, read at `(p, q)`: the plain sum over the contracted column. -/
theorem unit_product {φ₁ φ₂ : FTy} (d : DotDims ⟨2, ![R, 128]⟩ ⟨2, ![128, 128]⟩ ⟨2, ![R, 128]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (l : FVec Ideal ⟨2, ![R, 128]⟩ φ₁) (r : FVec Ideal ⟨2, ![128, 128]⟩ φ₂)
    (p : Fin R) (q : Fin 128) :
    matmul d prec l r (constant ⟨2, ![R, 128]⟩ .f32 0x00000000#32) (ix2 p q) = ∑ k : Fin 128, l (ix2 p k) * r (ix2 k q) :=
  (Ideal.matmul_constant_zero_apply d prec l r (ix2 p q)).trans
    (PlainDot.sum_eq (M := EReal) d hlb hln hlc hrb hrn hrc l r p q)

/-- A host contraction read at `(p, q)`: the same plain sum. -/
theorem host_product {φ₁ φ₂ : FTy} (d : DotDims ⟨2, ![R, 128]⟩ ⟨2, ![128, 128]⟩ ⟨2, ![R, 128]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (l : FVec Ideal ⟨2, ![R, 128]⟩ φ₁) (r : FVec Ideal ⟨2, ![128, 128]⟩ φ₂)
    (p : Fin R) (q : Fin 128) :
    Host.dotGeneral d prec l r (ix2 p q) = ∑ k : Fin 128, l (ix2 p k) * r (ix2 k q) :=
  (Ideal.dotGeneral_apply d prec .single l r (ix2 p q)).trans
    (PlainDot.sum_eq (M := EReal) d hlb hln hlc hrb hrn hrc l r p q)

/-- The kernel's arithmetic on a block of rows, read at `(p, q)`, is the layer's entry: `bb` is the bias row
    broadcast down the block. -/
theorem block_entry (d : DotDims ⟨2, ![R, 128]⟩ ⟨2, ![128, 128]⟩ ⟨2, ![R, 128]⟩)
    (hlb : d.lhsBatch = []) (hln : d.lhsNonContracting = [0]) (hlc : d.lhsContracting = [1])
    (hrb : d.rhsBatch = []) (hrn : d.rhsNonContracting = [1]) (hrc : d.rhsContracting = [0])
    (hbits : FTy.bits .bf16 < FTy.bits .f32)
    (h f : FVec Ideal ⟨2, ![R, 128]⟩ .f32) (wn ws : FVec Ideal ⟨2, ![128, 128]⟩ .f32)
    (bb : FVec Ideal ⟨2, ![R, 128]⟩ .f32) (b : (⟨2, ![1, 128]⟩ : Shape).Idx → EReal)
    (hbb : ∀ (p : Fin R) (q : Fin 128), bb (ix2 p q) = b (ix2 (0 : Fin 1) q)) (p : Fin R) (q : Fin 128) :
    addf (addf (matmul d none (truncf .bf16 f hbits) (truncf .bf16 ws hbits) (constant ⟨2, ![R, 128]⟩ .f32 0x00000000#32)) bb)
        (matmul d none (truncf .bf16 (mulf h (broadcast ⟨2, ![R, 128]⟩ (Scalar.ofBits (F := Ideal) .f32 0x3D800000#32))) hbits)
          (truncf .bf16 wn hbits) (constant ⟨2, ![R, 128]⟩ .f32 0x00000000#32)) (ix2 p q)
      = entry h f wn ws b p q := by
  show (matmul d none (truncf .bf16 f hbits) (truncf .bf16 ws hbits) (constant ⟨2, ![R, 128]⟩ .f32 0x00000000#32) (ix2 p q)
          + bb (ix2 p q))
        + matmul d none (truncf .bf16 (mulf h (broadcast ⟨2, ![R, 128]⟩ (Scalar.ofBits (F := Ideal) .f32 0x3D800000#32))) hbits)
            (truncf .bf16 wn hbits) (constant ⟨2, ![R, 128]⟩ .f32 0x00000000#32) (ix2 p q) = _
  rw [unit_product d hlb hln hlc hrb hrn hrc, unit_product d hlb hln hlc hrb hrn hrc, hbb]
  rfl

/-- The reference's arithmetic on whole arrays, read at `(p, q)`, is the layer's entry: `bb` is the bias row
    broadcast down the array and `sixteen` the literal 16.0 broadcast over it. -/
theorem array_entry (d : DotDims ⟨2, ![R, 128]⟩ ⟨2, ![128, 128]⟩ ⟨2, ![R, 128]⟩)
    (hlb : d.lhsBatch = []) (hln : d.lhsNonContracting = [0]) (hlc : d.lhsContracting = [1])
    (hrb : d.rhsBatch = []) (hrn : d.rhsNonContracting = [1]) (hrc : d.rhsContracting = [0])
    (h f : FVec Ideal ⟨2, ![R, 128]⟩ .f32) (wn ws : FVec Ideal ⟨2, ![128, 128]⟩ .f32)
    (bb sixteen : FVec Ideal ⟨2, ![R, 128]⟩ .f32) (b : (⟨2, ![1, 128]⟩ : Shape).Idx → EReal)
    (hbb : ∀ (p : Fin R) (q : Fin 128), bb (ix2 p q) = b (ix2 (0 : Fin 1) q))
    (h16 : ∀ i, sixteen i = Ideal.ofBits .f32 0x41800000#32) (p : Fin R) (q : Fin 128) :
    addf (addf (Host.dotGeneral d none f ws) bb) (Host.dotGeneral d none (Host.divf h sixteen) wn) (ix2 p q)
      = entry h f wn ws b p q := by
  show (Host.dotGeneral d none f ws (ix2 p q) + bb (ix2 p q)) + Host.dotGeneral d none (Host.divf h sixteen) wn (ix2 p q) = _
  rw [host_product d hlb hln hlc hrb hrn hrc, host_product d hlb hln hlc hrb hrn hrc, hbb]
  unfold entry
  refine congrArg (_ + ·) (Finset.sum_congr rfl fun k _ => congrArg (· * wn (ix2 k q)) ?_)
  show Ideal.div (h (ix2 p k)) (sixteen (ix2 p k)) = _
  rw [h16]
  exact Cert.Literals.div_sixteen _

end Cert.MeanLayer

end
-- ==== Proof.KernelValue.lean ====
/-
  The kernel's result array as one function of the arguments.

  Before the region the host computes what the region's five input windows stage: the aggregated neighbour rows and
  the destination rows (64000 rows each, cut into sixteen blocks of 4000), the two transposed weight matrices and the
  bias as one row (each staged whole at every point).  At grid point t the body stores, into block t of the result,
  the layer's entries for the block's 4000 rows: a block's row p is row 4000·t + p of the arrays, so the entry the
  body computes from its blocks at (p, q) is the layer's entry at (4000·t + p, q) of the whole arrays.  Row r of the
  result lies in block r / 4000, and the sixteen blocks cover the 64000 rows, so after the run the result array is the
  layer of the host-computed arrays, which are the named functions of the arguments.
-/
import proofs.«113063_j54494545052116_1_alg».proof.Proof.Gen.KernelIdeal.Value
import proofs.«113063_j54494545052116_1_alg».proof.Proof.MeanLayer
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

section Host

variable {F : FTy → Type} [FloatOps F]

/-- The partition an edge belongs to: its position divided by the 256000 edges of a partition, rounded towards
    minus infinity (a truncating quotient, lowered by one where the signs differ and the remainder is not zero). -/
def part : (⟨S1024000, .i32⟩ : BufTy).Contents (Elt F) :=
  select (andi (cmpi .ne (signi ((iotaInDim S1024000 32 0 : (⟨S1024000, .i32⟩ : BufTy).Contents (Elt F)))) (broadcastInDim S1024000 ![] bcast_S_S1024000 (signi (id ((constantI S_ 32 256000#32 : (⟨S_, .i32⟩ : BufTy).Contents (Elt F))))))) (cmpi .ne (Host.remsi ((iotaInDim S1024000 32 0 : (⟨S1024000, .i32⟩ : BufTy).Contents (Elt F))) (broadcastInDim S1024000 ![] bcast_S_S1024000 (id ((constantI S_ 32 256000#32 : (⟨S_, .i32⟩ : BufTy).Contents (Elt F)))))) (broadcastInDim S1024000 ![] bcast_S_S1024000 ((constantI S_ 32 0#32 : (⟨S_, .i32⟩ : BufTy).Contents (Elt F)))))) (subi (Host.divsi ((iotaInDim S1024000 32 0 : (⟨S1024000, .i32⟩ : BufTy).Contents (Elt F))) (broadcastInDim S1024000 ![] bcast_S_S1024000 (id ((constantI S_ 32 256000#32 : (⟨S_, .i32⟩ : BufTy).Contents (Elt F)))))) (broadcastInDim S1024000 ![] bcast_S_S1024000 ((constantI S_ 32 1#32 : (⟨S_, .i32⟩ : BufTy).Contents (Elt F))))) (Host.divsi ((iotaInDim S1024000 32 0 : (⟨S1024000, .i32⟩ : BufTy).Contents (Elt F))) (broadcastInDim S1024000 ![] bcast_S_S1024000 (id ((constantI S_ 32 256000#32 : (⟨S_, .i32⟩ : BufTy).Contents (Elt F))))))

/-- An edge's source row in the feature array: its partition's offset of 272000 frontier rows plus its local column
    index, a negative index counted from the array's end. -/
def src (col : (⟨S1024000, .i32⟩ : BufTy).Contents (Elt F)) : (⟨S1024000, .i32⟩ : BufTy).Contents (Elt F) :=
  select (cmpi .slt (addi (muli ((part (F := F))) (broadcastInDim S1024000 ![] bcast_S_S1024000 ((constantI S_ 32 272000#32 : (⟨S_, .i32⟩ : BufTy).Contents (Elt F))))) col) (broadcastInDim S1024000 ![] bcast_S_S1024000 ((constantI S_ 32 0#32 : (⟨S_, .i32⟩ : BufTy).Contents (Elt F))))) (addi (addi (muli ((part (F := F))) (broadcastInDim S1024000 ![] bcast_S_S1024000 ((constantI S_ 32 272000#32 : (⟨S_, .i32⟩ : BufTy).Contents (Elt F))))) col) (broadcastInDim S1024000 ![] bcast_S_S1024000 ((constantI S_ 32 1088000#32 : (⟨S_, .i32⟩ : BufTy).Contents (Elt F))))) (addi (muli ((part (F := F))) (broadcastInDim S1024000 ![] bcast_S_S1024000 ((constantI S_ 32 272000#32 : (⟨S_, .i32⟩ : BufTy).Contents (Elt F))))) col)

/-- An edge's destination row among the 64000 seeds: its partition's offset of 16000 seeds plus its local row index. -/
def dst (row : (⟨S1024000, .i32⟩ : BufTy).Contents (Elt F)) : (⟨S1024000, .i32⟩ : BufTy).Contents (Elt F) :=
  addi (muli ((part (F := F))) (broadcastInDim S1024000 ![] bcast_S_S1024000 ((constantI S_ 32 16000#32 : (⟨S_, .i32⟩ : BufTy).Contents (Elt F))))) row

/-- The neighbour aggregation: each edge's source row of the features gathered, and the gathered rows added into
    their destination rows of a zero array. -/
def agg (x : (⟨S1088000x128, .f32⟩ : BufTy).Contents (Elt F)) (row : (⟨S1024000, .i32⟩ : BufTy).Contents (Elt F)) (col : (⟨S1024000, .i32⟩ : BufTy).Contents (Elt F)) : (⟨S64000x128, .f32⟩ : BufTy).Contents (Elt F) :=
  Host.scatterAdd scatter_S64000x128_S1024000x1_S1024000x128_1_0_0_1 (broadcastInDim S64000x128 ![] bcast_S_S64000x128 ((constant S_ .f32 0x00000000#32 : (⟨S_, .f32⟩ : BufTy).Contents (Elt F)))) (broadcastInDim S1024000x1 ![0] bcast_S1024000_S1024000x1_0 ((dst row))) (Host.gather gather_S1088000x128_S1024000x1_S1024000x128_1_0_n_n_0_1_1128 x (broadcastInDim S1024000x1 ![0] bcast_S1024000_S1024000x1_0 ((src col))))

/-- The destination rows: the first 16000 rows of each of the four partitions' 272000 frontier rows, laid end to end. -/
def fdst (x : (⟨S1088000x128, .f32⟩ : BufTy).Contents (Elt F)) : (⟨S64000x128, .f32⟩ : BufTy).Contents (Elt F) :=
  shapeCast S64000x128 (extractStridedSlice S4x16000x128 ![0, 0, 0] (shapeCast S4x272000x128 x shapeCasts_S1088000x128_S4x272000x128) slices_S4x272000x128_S4x16000x128_0_0_0) shapeCasts_S4x16000x128_S64000x128

variable (m : (ℓ : Loc nD τ sig) → Buf (Elt F) ℓ)

/-- The arrays the region's input windows stage, at their literal types. -/
abbrev harr (c : Dev nD) : (⟨S64000x128, .f32⟩ : BufTy).Contents (Elt F) := V m c main_v17
abbrev farr (c : Dev nD) : (⟨S64000x128, .f32⟩ : BufTy).Contents (Elt F) := V m c main_v20
abbrev wnarr (c : Dev nD) : (⟨S128x128, .f32⟩ : BufTy).Contents (Elt F) := V m c main_v21
abbrev wsarr (c : Dev nD) : (⟨S128x128, .f32⟩ : BufTy).Contents (Elt F) := V m c main_v22
abbrev barr (c : Dev nD) : (⟨S1x128, .f32⟩ : BufTy).Contents (Elt F) := V m c main_v23

/-- The first window's array is the neighbour aggregation of the arguments. -/
theorem harr_eq (c : Dev nD) : harr m c = agg (m ((c : Thread nD τ).loc main_arg0)) (m ((c : Thread nD τ).loc main_arg1)) (m ((c : Thread nD τ).loc main_arg2)) := by
  show V m c main_v17 = _
  dsimp only [V]
  simp only [hostOps0, hostOps0_1, hostOps0_2, List.flatten_cons, List.flatten_nil, List.append_nil, List.cons_append, List.nil_append]
  after_results_simp
  rfl

/-- The second window's array is the destination rows of the features. -/
theorem farr_eq (c : Dev nD) : farr m c = fdst (m ((c : Thread nD τ).loc main_arg0)) := by
  show V m c main_v20 = _
  dsimp only [V]
  simp only [hostOps0, hostOps0_1, hostOps0_2, List.flatten_cons, List.flatten_nil, List.append_nil, List.cons_append, List.nil_append]
  after_results_simp
  rfl

/-- The third window's array is the neighbour weights transposed. -/
theorem wnarr_eq (c : Dev nD) : wnarr m c = transpose S128x128 [1, 0] (m ((c : Thread nD τ).loc main_arg3)) transposes_S128x128_S128x128_1_0 := by
  show V m c main_v21 = _
  dsimp only [V]
  simp only [hostOps0, hostOps0_1, hostOps0_2, List.flatten_cons, List.flatten_nil, List.append_nil, List.cons_append, List.nil_append]
  after_results_simp

/-- The fourth window's array is the self weights transposed. -/
theorem wsarr_eq (c : Dev nD) : wsarr m c = transpose S128x128 [1, 0] (m ((c : Thread nD τ).loc main_arg4)) transposes_S128x128_S128x128_1_0 := by
  show V m c main_v22 = _
  dsimp only [V]
  simp only [hostOps0, hostOps0_1, hostOps0_2, List.flatten_cons, List.flatten_nil, List.append_nil, List.cons_append, List.nil_append]
  after_results_simp

/-- The fifth window's array is the bias laid out as one row. -/
theorem barr_eq (c : Dev nD) : barr m c = shapeCast S1x128 (m ((c : Thread nD τ).loc main_arg5)) shapeCasts_S128_S1x128 := by
  show V m c main_v23 = _
  dsimp only [V]
  simp only [hostOps0, hostOps0_1, hostOps0_2, List.flatten_cons, List.flatten_nil, List.append_nil, List.cons_append, List.nil_append]
  after_results_simp
  rfl

end Host

section Value

variable (m : (ℓ : Loc nD τ sig) → Buf (Elt Ideal) ℓ) (ρ : Dev nD → PrngReg)

theorem hz : (![0, 0] : Fin 2 → Nat) = fun _ => 0 := funext fun a => by fin_cases a <;> rfl

/-- What the body stores, read at `(p, q)` of its block: the layer's entry of the five loaded blocks. -/
theorem pay_apply (x0 x1 : Vec Ideal S4000x128 .f32) (x2 x3 : Vec Ideal S128x128 .f32) (x4 : Vec Ideal S1x128 .f32)
    (p : Fin 4000) (q : Fin 128) :
    k0_pay1 (F := Ideal) x0 x1 x2 x3 x4 (ix2 p q) = Cert.MeanLayer.entry x0 x1 x2 x3 x4 p q := by
  unfold k0_pay1
  simp only [shapeCast_self]
  exact Cert.MeanLayer.block_entry dot_S4000x128_S128x128_S4000x128_1_0_0_1_n_n rfl rfl rfl rfl rfl rfl bitsLt_bf16_f32
    x0 x1 x2 x3 (broadcastTo S4000x128 x4 broadcasts_S1x128_S4000x128) x4
    (fun p q => broadcastTo_apply x4 broadcasts_S1x128_S4000x128 (ix2 p q) (ix2 (0 : Fin 1) q)
      (fun a => match a with | ⟨0, _⟩ => rfl | ⟨1, _⟩ => rfl)) p q

/-- The windows' block indices at point `t`, decided over the sixteen points: the three row-blocked windows are at
    block `t` of their rows, the three whole ones at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Index `y` of the first window's block at point `t` is index `(4000 t + y 0, y 1)` of its array. -/
theorem hblk_emb (t : Fin cfg0.N) (y : S4000x128.Idx) (i : S64000x128.Idx)
    (h0 : (i 0).val = 4000 * t.val + (y 0).val) (h1 : (i 1).val = (y 1).val) :
    ((cfg0.win 0).blk t).view.emb y = i := by
  obtain ⟨e0, e1, -⟩ := idx_facts t
  funext a
  apply Fin.ext
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- The neighbour block at point `t` is rows `4000 t …` of the neighbour array. -/
theorem hblk_apply (c : Dev nD) (t : Fin cfg0.N) (y : S4000x128.Idx) (i : S64000x128.Idx)
    (h0 : (i 0).val = 4000 * t.val + (y 0).val) (h1 : (i 1).val = (y 1).val) :
    (iblk m c 0 t : Vec Ideal S4000x128 .f32) y = harr m c i := by
  unfold iblk
  rw [View.read_apply, hblk_emb t y i h0 h1]
  exact cast_eq _ _

/-- Likewise for the second window. -/
theorem fblk_emb (t : Fin cfg0.N) (y : S4000x128.Idx) (i : S64000x128.Idx)
    (h0 : (i 0).val = 4000 * t.val + (y 0).val) (h1 : (i 1).val = (y 1).val) :
    ((cfg0.win 1).blk t).view.emb y = i := by
  obtain ⟨-, -, e0, e1, -⟩ := idx_facts t
  funext a
  apply Fin.ext
  match a with
  | ⟨0, _⟩ => show win0_1.index t (0 : Fin 2) * 4000 + 1 * (y 0).val = (i 0).val; rw [e0, h0]; omega
  | ⟨1, _⟩ => show win0_1.index t (1 : Fin 2) * 128 + 1 * (y 1).val = (i 1).val; rw [e1, h1]; omega

/-- The destination block at point `t` is rows `4000 t …` of the destination array. -/
theorem fblk_apply (c : Dev nD) (t : Fin cfg0.N) (y : S4000x128.Idx) (i : S64000x128.Idx)
    (h0 : (i 0).val = 4000 * t.val + (y 0).val) (h1 : (i 1).val = (y 1).val) :
    (iblk m c 1 t : Vec Ideal S4000x128 .f32) y = farr m c i := by
  unfold iblk
  rw [View.read_apply, fblk_emb t y i h0 h1]
  exact cast_eq _ _

/-- The third window's one block is its whole array. -/
theorem wnblk_emb (t : Fin cfg0.N) (y : S128x128.Idx) (i : S128x128.Idx)
    (h0 : (i 0).val = (y 0).val) (h1 : (i 1).val = (y 1).val) :
    ((cfg0.win 2).blk t).view.emb y = i := by
  obtain ⟨-, -, -, -, e0, e1, -⟩ := idx_facts t
  funext a
  apply Fin.ext
  match a with
  | ⟨0, _⟩ => show win0_2.index t (0 : Fin 2) * 128 + 1 * (y 0).val = (i 0).val; rw [e0, h0]; omega
  | ⟨1, _⟩ => show win0_2.index t (1 : Fin 2) * 128 + 1 * (y 1).val = (i 1).val; rw [e1, h1]; omega

/-- The neighbour weights' block at any point is the whole array. -/
theorem wnblk_apply (c : Dev nD) (t : Fin cfg0.N) (y : S128x128.Idx) (i : S128x128.Idx)
    (h0 : (i 0).val = (y 0).val) (h1 : (i 1).val = (y 1).val) :
    (iblk m c 2 t : Vec Ideal S128x128 .f32) y = wnarr m c i := by
  unfold iblk
  rw [View.read_apply, wnblk_emb t y i h0 h1]
  exact cast_eq _ _

/-- The fourth window's one block is its whole array. -/
theorem wsblk_emb (t : Fin cfg0.N) (y : S128x128.Idx) (i : S128x128.Idx)
    (h0 : (i 0).val = (y 0).val) (h1 : (i 1).val = (y 1).val) :
    ((cfg0.win 3).blk t).view.emb y = i := by
  obtain ⟨-, -, -, -, -, -, e0, e1, -⟩ := idx_facts t
  funext a
  apply Fin.ext
  match a with
  | ⟨0, _⟩ => show win0_3.index t (0 : Fin 2) * 128 + 1 * (y 0).val = (i 0).val; rw [e0, h0]; omega
  | ⟨1, _⟩ => show win0_3.index t (1 : Fin 2) * 128 + 1 * (y 1).val = (i 1).val; rw [e1, h1]; omega

/-- The self weights' block at any point is the whole array. -/
theorem wsblk_apply (c : Dev nD) (t : Fin cfg0.N) (y : S128x128.Idx) (i : S128x128.Idx)
    (h0 : (i 0).val = (y 0).val) (h1 : (i 1).val = (y 1).val) :
    (iblk m c 3 t : Vec Ideal S128x128 .f32) y = wsarr m c i := by
  unfold iblk
  rw [View.read_apply, wsblk_emb t y i h0 h1]
  exact cast_eq _ _

/-- The fifth window's one block is its whole row. -/
theorem bblk_emb (t : Fin cfg0.N) (y : S1x128.Idx) (i : S1x128.Idx)
    (h0 : (i 0).val = (y 0).val) (h1 : (i 1).val = (y 1).val) :
    ((cfg0.win 4).blk t).view.emb y = i := by
  obtain ⟨-, -, -, -, -, -, -, -, e0, e1, -⟩ := idx_facts t
  funext a
  apply Fin.ext
  match a with
  | ⟨0, _⟩ => show win0_4.index t (0 : Fin 2) * 1 + 1 * (y 0).val = (i 0).val; rw [e0, h0]; omega
  | ⟨1, _⟩ => show win0_4.index t (1 : Fin 2) * 128 + 1 * (y 1).val = (i 1).val; rw [e1, h1]; omega

/-- The bias row's block at any point is the whole row. -/
theorem bblk_apply (c : Dev nD) (t : Fin cfg0.N) (y : S1x128.Idx) (i : S1x128.Idx)
    (h0 : (i 0).val = (y 0).val) (h1 : (i 1).val = (y 1).val) :
    (iblk m c 4 t : Vec Ideal S1x128 .f32) y = barr m c i := by
  unfold iblk
  rw [View.read_apply, bblk_emb t y i h0 h1]
  exact cast_eq _ _

/-- The result array: the layer of the five staged arrays. -/
abbrev outarr (c : Dev nD) : (⟨S64000x128, .f32⟩ : BufTy).Contents (Elt Ideal) :=
  Cert.MeanLayer.layer (harr m c) (farr m c) (wnarr m c) (wsarr m c) (barr m c)

/-- What point `t` writes back is block `t` of the layer of the staged arrays. -/
theorem flushed_eq (c : Dev nD) (t : Fin cfg0.N) :
    (dats m 0 c).flushed 5 t = ((cfg0.win 5).blk t).view.read (Elt Ideal) (outarr m c) := by
  rw [Cert.KernelIdeal.Value.flushed5]
  unfold out0_5
  rw [View.canon_unit_zero hz]
  simp only [View.ld_unit_zero (S := S4000x128) hz, View.ld_unit_zero (S := S128x128) hz, View.ld_unit_zero (S := S1x128) hz]
  obtain ⟨-, -, -, -, -, -, -, -, -, -, e0, e1⟩ := idx_facts t
  funext j
  obtain ⟨p, q, rfl⟩ : ∃ (p : Fin 4000) (q : Fin 128), j = ix2 p q := ⟨j 0, j 1, eq_ix2 j⟩
  show k0_pay1 (F := Ideal) (iblk m c 0 t) (iblk m c 1 t) (iblk m c 2 t) (iblk m c 3 t) (iblk m c 4 t) (ix2 p q)
    = outarr m c (((cfg0.win 5).blk t).view.emb (ix2 p q))
  have hi0 : ((((cfg0.win 5).blk t).view.emb (ix2 p q)) 0).val = 4000 * t.val + p.val := by
    show win0_5.index t (0 : Fin 2) * 4000 + 1 * p.val = _; rw [e0]; omega
  have hi1 : ((((cfg0.win 5).blk t).view.emb (ix2 p q)) 1).val = q.val := by
    show win0_5.index t (1 : Fin 2) * 128 + 1 * q.val = _; rw [e1]; omega
  refine (pay_apply (iblk m c 0 t) (iblk m c 1 t) (iblk m c 2 t) (iblk m c 3 t) (iblk m c 4 t) p q).trans ?_
  exact Cert.MeanLayer.entry_congr _ _ _ _ _ _ _ _ _ _ p _ q _
    (fun k => hblk_apply m c t (ix2 p k) _ hi0 rfl) (fun k => fblk_apply m c t (ix2 p k) _ hi0 rfl)
    (fun k => wnblk_apply m c t (ix2 k q) _ rfl hi1) (fun k => wsblk_apply m c t (ix2 k q) _ rfl hi1)
    (bblk_apply m c t (ix2 (0 : Fin 1) q) _ rfl hi1)

/-- An index of the result array is in point `t`'s block iff each coordinate is in the block's range on its axis. -/
theorem mem_blk (t : Fin cfg0.N) (i : S64000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v24).slice (win0_5.rect t)).set ↔ _
  rw [View.set_slice_whole, Rect.mem_set_unit]
  exact Iff.rfl

/-- Row `r` of the result lies in block `r / 4000`: the sixteen blocks cover the array. -/
theorem cover (i : S64000x128.Idx) : ∃ t : Fin cfg0.N, (cfg0.win 5).flush t = true ∧ i ∈ ((cfg0.win 5).blk t).view.set := by
  have hi0 : (i 0).val < 64000 := (i 0).isLt
  have hi1 : (i 1).val < 128 := (i 1).isLt
  have hN : cfg0.N = 16 := N_0
  obtain ⟨t, ht⟩ : ∃ t : Fin cfg0.N, t.val = (i 0).val / 4000 := ⟨⟨(i 0).val / 4000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; rw [e0, ht]; omega
  | ⟨1, _⟩ => show win0_5.index t (1 : Fin 2) * 128 ≤ (i 1).val ∧ (i 1).val < win0_5.index t (1 : Fin 2) * 128 + 128; rw [e1]; omega

/-- After the run the result array is the layer of the staged arrays. -/
theorem final (c : Dev nD) : (dats m 0 c).arrAt 5 cfg0.N = outarr m c :=
  (dats m 0 c).arrAt_eq_of_cover 5 (outarr m c) (fun t _ => flushed_eq m c t) cover

/-- The result as a function of the arguments. -/
def result (x : (⟨S1088000x128, .f32⟩ : BufTy).Contents (Elt Ideal)) (row col : (⟨S1024000, .i32⟩ : BufTy).Contents (Elt Ideal))
    (wn ws : (⟨S128x128, .f32⟩ : BufTy).Contents (Elt Ideal)) (b : (⟨S128, .f32⟩ : BufTy).Contents (Elt Ideal)) :
    (⟨S64000x128, .f32⟩ : BufTy).Contents (Elt Ideal) :=
  Cert.MeanLayer.layer (agg x row col) (fdst x) (transpose S128x128 [1, 0] wn transposes_S128x128_S128x128_1_0)
    (transpose S128x128 [1, 0] ws transposes_S128x128_S128x128_1_0) (shapeCast S1x128 b shapeCasts_S128_S1x128)

theorem outarr_eq (c : Dev nD) : outarr m c = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold outarr result
  rw [harr_eq, farr_eq, wnarr_eq, wsarr_eq, barr_eq]

/-- Every execution of the kernel's program terminates with the result buffer at `result` of the arguments as
    launched, and the arguments unchanged. -/
theorem run : θ_run defs (onTc (τ := τ) (main (F := Ideal))) ⟨m, fun _ => 0, ρ⟩ fun r => ∀ c : Dev nD,
      r.2.mem ((c : Thread nD τ).loc main_v24) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (outarr_eq m c)), (h c).2⟩)
    (Cert.KernelIdeal.Value.run_blocks m ρ)

end Value

end Cert.KernelIdeal.Hand

end
-- ==== Proof.RefRun.lean ====
/-
  The reference's run, read back.

  The reference is a straight line of host operations: the edges' partition numbers (positions divided by the
  partition size), their source rows in the feature array and destination rows among the seeds, the gather of the
  source rows and their sum into the destination rows, the division of the summed rows by 16, the two products with
  the transposed weight matrices, and the bias and the neighbour product added onto the self product.  The floor
  division is a function of its own, run on its call's buffers.  Listed in order the operations are one chain, so every
  execution ends with each buffer at the composition of the operations' functions on the arguments: the result is
  the tail below applied to the aggregated rows and the destination rows, and no operation writes an argument.
-/
import proofs.«113063_j54494545052116_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The partition an edge belongs to: its position divided by the 256000 edges of a partition, rounded towards
    minus infinity (a truncating quotient, lowered by one where the signs differ and the remainder is not zero). -/
def part : (⟨S1024000, .i32⟩ : BufTy).Contents (Elt F) :=
  select (andi (cmpi .ne (signi ((iotaInDim S1024000 32 0 : (⟨S1024000, .i32⟩ : BufTy).Contents (Elt F)))) (broadcastInDim S1024000 ![] bcast_S_S1024000 (signi (id ((constantI S_ 32 256000#32 : (⟨S_, .i32⟩ : BufTy).Contents (Elt F))))))) (cmpi .ne (Host.remsi ((iotaInDim S1024000 32 0 : (⟨S1024000, .i32⟩ : BufTy).Contents (Elt F))) (broadcastInDim S1024000 ![] bcast_S_S1024000 (id ((constantI S_ 32 256000#32 : (⟨S_, .i32⟩ : BufTy).Contents (Elt F)))))) (broadcastInDim S1024000 ![] bcast_S_S1024000 ((constantI S_ 32 0#32 : (⟨S_, .i32⟩ : BufTy).Contents (Elt F)))))) (subi (Host.divsi ((iotaInDim S1024000 32 0 : (⟨S1024000, .i32⟩ : BufTy).Contents (Elt F))) (broadcastInDim S1024000 ![] bcast_S_S1024000 (id ((constantI S_ 32 256000#32 : (⟨S_, .i32⟩ : BufTy).Contents (Elt F)))))) (broadcastInDim S1024000 ![] bcast_S_S1024000 ((constantI S_ 32 1#32 : (⟨S_, .i32⟩ : BufTy).Contents (Elt F))))) (Host.divsi ((iotaInDim S1024000 32 0 : (⟨S1024000, .i32⟩ : BufTy).Contents (Elt F))) (broadcastInDim S1024000 ![] bcast_S_S1024000 (id ((constantI S_ 32 256000#32 : (⟨S_, .i32⟩ : BufTy).Contents (Elt F))))))

/-- An edge's source row in the feature array: its partition's offset of 272000 frontier rows plus its local column
    index, a negative index counted from the array's end. -/
def src (col : (⟨S1024000, .i32⟩ : BufTy).Contents (Elt F)) : (⟨S1024000, .i32⟩ : BufTy).Contents (Elt F) :=
  select (cmpi .slt (addi (muli ((part (F := F))) (broadcastInDim S1024000 ![] bcast_S_S1024000 ((constantI S_ 32 272000#32 : (⟨S_, .i32⟩ : BufTy).Contents (Elt F))))) col) (broadcastInDim S1024000 ![] bcast_S_S1024000 ((constantI S_ 32 0#32 : (⟨S_, .i32⟩ : BufTy).Contents (Elt F))))) (addi (addi (muli ((part (F := F))) (broadcastInDim S1024000 ![] bcast_S_S1024000 ((constantI S_ 32 272000#32 : (⟨S_, .i32⟩ : BufTy).Contents (Elt F))))) col) (broadcastInDim S1024000 ![] bcast_S_S1024000 ((constantI S_ 32 1088000#32 : (⟨S_, .i32⟩ : BufTy).Contents (Elt F))))) (addi (muli ((part (F := F))) (broadcastInDim S1024000 ![] bcast_S_S1024000 ((constantI S_ 32 272000#32 : (⟨S_, .i32⟩ : BufTy).Contents (Elt F))))) col)

/-- An edge's destination row among the 64000 seeds: its partition's offset of 16000 seeds plus its local row index. -/
def dst (row : (⟨S1024000, .i32⟩ : BufTy).Contents (Elt F)) : (⟨S1024000, .i32⟩ : BufTy).Contents (Elt F) :=
  addi (muli ((part (F := F))) (broadcastInDim S1024000 ![] bcast_S_S1024000 ((constantI S_ 32 16000#32 : (⟨S_, .i32⟩ : BufTy).Contents (Elt F))))) row

/-- The neighbour aggregation: each edge's source row of the features gathered, and the gathered rows added into
    their destination rows of a zero array. -/
def agg (x : (⟨S1088000x128, .f32⟩ : BufTy).Contents (Elt F)) (row : (⟨S1024000, .i32⟩ : BufTy).Contents (Elt F)) (col : (⟨S1024000, .i32⟩ : BufTy).Contents (Elt F)) : (⟨S64000x128, .f32⟩ : BufTy).Contents (Elt F) :=
  Host.scatterAdd scatter_S64000x128_S1024000x1_S1024000x128_1_0_0_1 (broadcastInDim S64000x128 ![] bcast_S_S64000x128 ((constant S_ .f32 0x00000000#32 : (⟨S_, .f32⟩ : BufTy).Contents (Elt F)))) (broadcastInDim S1024000x1 ![0] bcast_S1024000_S1024000x1_0 ((dst row))) (Host.gather gather_S1088000x128_S1024000x1_S1024000x128_1_0_n_n_0_1_1128 x (broadcastInDim S1024000x1 ![0] bcast_S1024000_S1024000x1_0 ((src col))))

/-- The destination rows: the first 16000 rows of each of the four partitions' 272000 frontier rows, laid end to end. -/
def fdst (x : (⟨S1088000x128, .f32⟩ : BufTy).Contents (Elt F)) : (⟨S64000x128, .f32⟩ : BufTy).Contents (Elt F) :=
  shapeCast S64000x128 (extractStridedSlice S4x16000x128 ![0, 0, 0] (shapeCast S4x272000x128 x shapeCasts_S1088000x128_S4x272000x128) slices_S4x272000x128_S4x16000x128_0_0_0) shapeCasts_S4x16000x128_S64000x128

/-- The whole result: the self product plus the bias, plus the product of the neighbour mean. -/
def result (x : (⟨S1088000x128, .f32⟩ : BufTy).Contents (Elt F)) (row : (⟨S1024000, .i32⟩ : BufTy).Contents (Elt F)) (col : (⟨S1024000, .i32⟩ : BufTy).Contents (Elt F)) (wn ws : (⟨S128x128, .f32⟩ : BufTy).Contents (Elt F)) (b : (⟨S128, .f32⟩ : BufTy).Contents (Elt F)) : (⟨S64000x128, .f32⟩ : BufTy).Contents (Elt F) :=
  addf (addf (Host.dotGeneral dot_S64000x128_S128x128_S64000x128_1_0_0_1_n_n none ((fdst x)) (transpose S128x128 [1, 0] ws transposes_S128x128_S128x128_1_0)) (broadcastInDim S64000x128 ![0, 1] bcast_S1x128_S64000x128_0_1 (broadcastInDim S1x128 ![1] bcast_S128_S1x128_1 b))) (Host.dotGeneral dot_S64000x128_S128x128_S64000x128_1_0_0_1_n_n none (Host.divf ((agg x row col)) (broadcastInDim S64000x128 ![] bcast_S_S64000x128 ((constant S_ .f32 0x41800000#32 : (⟨S_, .f32⟩ : BufTy).Contents (Elt F))))) (transpose S128x128 [1, 0] wn transposes_S128x128_S128x128_1_0))

/-- The program's 54 operations in order, the floor division's seventeen on its call's buffers. -/
abbrev ops : List (HloOp τ sig (Elt F)) :=
  [
    StableHlo.nullary main_v0 (iotaInDim S1024000 32 0),
    StableHlo.nullary main_c (constantI S_ 32 256000#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S1024000, .i32⟩) (broadcastInDim S1024000 ![] bcast_S_S1024000),
    StableHlo.TRef.binary (.of main_v0 : StableHlo.TRef sig ⟨S1024000, .i32⟩) (.of main_call0_v1 : StableHlo.TRef sig ⟨S1024000, .i32⟩) (.of main_call0_v2 : StableHlo.TRef sig ⟨S1024000, .i32⟩) Host.divsi,
    StableHlo.TRef.unary (.of main_v0 : StableHlo.TRef sig ⟨S1024000, .i32⟩) (.of main_call0_v3 : StableHlo.TRef sig ⟨S1024000, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S1024000, .i32⟩) (broadcastInDim S1024000 ![] bcast_S_S1024000),
    StableHlo.TRef.binary (.of main_call0_v3 : StableHlo.TRef sig ⟨S1024000, .i32⟩) (.of main_call0_v5 : StableHlo.TRef sig ⟨S1024000, .i32⟩) (.of main_call0_v6 : StableHlo.TRef sig ⟨S1024000, .i1⟩) (cmpi .ne),
    StableHlo.TRef.unary (.of main_call0_v0 : StableHlo.TRef sig ⟨S_, .i32⟩) (.of main_call0_v7 : StableHlo.TRef sig ⟨S1024000, .i32⟩) (broadcastInDim S1024000 ![] bcast_S_S1024000),
    StableHlo.TRef.binary (.of main_v0 : StableHlo.TRef sig ⟨S1024000, .i32⟩) (.of main_call0_v7 : StableHlo.TRef sig ⟨S1024000, .i32⟩) (.of main_call0_v8 : StableHlo.TRef sig ⟨S1024000, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S1024000, .i32⟩) (broadcastInDim S1024000 ![] bcast_S_S1024000),
    StableHlo.TRef.binary (.of main_call0_v8 : StableHlo.TRef sig ⟨S1024000, .i32⟩) (.of main_call0_v9 : StableHlo.TRef sig ⟨S1024000, .i32⟩) (.of main_call0_v10 : StableHlo.TRef sig ⟨S1024000, .i1⟩) (cmpi .ne),
    StableHlo.TRef.binary (.of main_call0_v6 : StableHlo.TRef sig ⟨S1024000, .i1⟩) (.of main_call0_v10 : StableHlo.TRef sig ⟨S1024000, .i1⟩) (.of main_call0_v11 : StableHlo.TRef sig ⟨S1024000, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S1024000, .i32⟩) (broadcastInDim S1024000 ![] bcast_S_S1024000),
    StableHlo.TRef.binary (.of main_call0_v2 : StableHlo.TRef sig ⟨S1024000, .i32⟩) (.of main_call0_v12 : StableHlo.TRef sig ⟨S1024000, .i32⟩) (.of main_call0_v13 : StableHlo.TRef sig ⟨S1024000, .i32⟩) subi,
    StableHlo.TRef.ternary (.of main_call0_v11 : StableHlo.TRef sig ⟨S1024000, .i1⟩) (.of main_call0_v13 : StableHlo.TRef sig ⟨S1024000, .i32⟩) (.of main_call0_v2 : StableHlo.TRef sig ⟨S1024000, .i32⟩) (.of main_v1 : StableHlo.TRef sig ⟨S1024000, .i32⟩) select,
    StableHlo.nullary main_c_0 (constantI S_ 32 272000#32),
    StableHlo.unary main_c_0 main_v2 (broadcastInDim S1024000 ![] bcast_S_S1024000 : (⟨S_, .i32⟩ : BufTy).Contents (Elt F) → (⟨S1024000, .i32⟩ : BufTy).Contents (Elt F)),
    StableHlo.binary main_v1 main_v2 main_v3 (muli : (⟨S1024000, .i32⟩ : BufTy).Contents (Elt F) → (⟨S1024000, .i32⟩ : BufTy).Contents (Elt F) → (⟨S1024000, .i32⟩ : BufTy).Contents (Elt F)),
    StableHlo.binary main_v3 main_arg2 main_v4 (addi : (⟨S1024000, .i32⟩ : BufTy).Contents (Elt F) → (⟨S1024000, .i32⟩ : BufTy).Contents (Elt F) → (⟨S1024000, .i32⟩ : BufTy).Contents (Elt F)),
    StableHlo.nullary main_c_1 (constantI S_ 32 16000#32),
    StableHlo.unary main_c_1 main_v5 (broadcastInDim S1024000 ![] bcast_S_S1024000 : (⟨S_, .i32⟩ : BufTy).Contents (Elt F) → (⟨S1024000, .i32⟩ : BufTy).Contents (Elt F)),
    StableHlo.binary main_v1 main_v5 main_v6 (muli : (⟨S1024000, .i32⟩ : BufTy).Contents (Elt F) → (⟨S1024000, .i32⟩ : BufTy).Contents (Elt F) → (⟨S1024000, .i32⟩ : BufTy).Contents (Elt F)),
    StableHlo.binary main_v6 main_arg1 main_v7 (addi : (⟨S1024000, .i32⟩ : BufTy).Contents (Elt F) → (⟨S1024000, .i32⟩ : BufTy).Contents (Elt F) → (⟨S1024000, .i32⟩ : BufTy).Contents (Elt F)),
    StableHlo.nullary main_c_2 (constantI S_ 32 0#32),
    StableHlo.unary main_c_2 main_v8 (broadcastInDim S1024000 ![] bcast_S_S1024000 : (⟨S_, .i32⟩ : BufTy).Contents (Elt F) → (⟨S1024000, .i32⟩ : BufTy).Contents (Elt F)),
    StableHlo.binary main_v4 main_v8 main_v9 (cmpi .slt : (⟨S1024000, .i32⟩ : BufTy).Contents (Elt F) → (⟨S1024000, .i32⟩ : BufTy).Contents (Elt F) → (⟨S1024000, .i1⟩ : BufTy).Contents (Elt F)),
    StableHlo.nullary main_c_3 (constantI S_ 32 1088000#32),
    StableHlo.unary main_c_3 main_v10 (broadcastInDim S1024000 ![] bcast_S_S1024000 : (⟨S_, .i32⟩ : BufTy).Contents (Elt F) → (⟨S1024000, .i32⟩ : BufTy).Contents (Elt F)),
    StableHlo.binary main_v4 main_v10 main_v11 (addi : (⟨S1024000, .i32⟩ : BufTy).Contents (Elt F) → (⟨S1024000, .i32⟩ : BufTy).Contents (Elt F) → (⟨S1024000, .i32⟩ : BufTy).Contents (Elt F)),
    StableHlo.ternary main_v9 main_v11 main_v4 main_v12 (select : (⟨S1024000, .i1⟩ : BufTy).Contents (Elt F) → (⟨S1024000, .i32⟩ : BufTy).Contents (Elt F) → (⟨S1024000, .i32⟩ : BufTy).Contents (Elt F) → (⟨S1024000, .i32⟩ : BufTy).Contents (Elt F)),
    StableHlo.unary main_v12 main_v13 (broadcastInDim S1024000x1 ![0] bcast_S1024000_S1024000x1_0 : (⟨S1024000, .i32⟩ : BufTy).Contents (Elt F) → (⟨S1024000x1, .i32⟩ : BufTy).Contents (Elt F)),
    StableHlo.binary main_arg0 main_v13 main_v14 ((fun x i => Host.gather gather_S1088000x128_S1024000x1_S1024000x128_1_0_n_n_0_1_1128 x i) : (⟨S1088000x128, .f32⟩ : BufTy).Contents (Elt F) → (⟨S1024000x1, .i32⟩ : BufTy).Contents (Elt F) → (⟨S1024000x128, .f32⟩ : BufTy).Contents (Elt F)),
    StableHlo.nullary main_cst (constant S_ .f32 0x00000000#32),
    StableHlo.unary main_cst main_v15 (broadcastInDim S64000x128 ![] bcast_S_S64000x128 : (⟨S_, .f32⟩ : BufTy).Contents (Elt F) → (⟨S64000x128, .f32⟩ : BufTy).Contents (Elt F)),
    StableHlo.unary main_v7 main_v16 (broadcastInDim S1024000x1 ![0] bcast_S1024000_S1024000x1_0 : (⟨S1024000, .i32⟩ : BufTy).Contents (Elt F) → (⟨S1024000x1, .i32⟩ : BufTy).Contents (Elt F)),
    StableHlo.ternary main_v15 main_v16 main_v14 main_v17 ((fun x i u => Host.scatterAdd scatter_S64000x128_S1024000x1_S1024000x128_1_0_0_1 x i u) : (⟨S64000x128, .f32⟩ : BufTy).Contents (Elt F) → (⟨S1024000x1, .i32⟩ : BufTy).Contents (Elt F) → (⟨S1024000x128, .f32⟩ : BufTy).Contents (Elt F) → (⟨S64000x128, .f32⟩ : BufTy).Contents (Elt F)),
    StableHlo.nullary main_cst_4 (constant S_ .f32 0x41800000#32),
    StableHlo.unary main_cst_4 main_v18 (broadcastInDim S64000x128 ![] bcast_S_S64000x128 : (⟨S_, .f32⟩ : BufTy).Contents (Elt F) → (⟨S64000x128, .f32⟩ : BufTy).Contents (Elt F)),
    StableHlo.binary main_v17 main_v18 main_v19 (Host.divf : (⟨S64000x128, .f32⟩ : BufTy).Contents (Elt F) → (⟨S64000x128, .f32⟩ : BufTy).Contents (Elt F) → (⟨S64000x128, .f32⟩ : BufTy).Contents (Elt F)),
    StableHlo.unary main_arg3 main_v20 ((transpose S128x128 [1, 0] · transposes_S128x128_S128x128_1_0) : (⟨S128x128, .f32⟩ : BufTy).Contents (Elt F) → (⟨S128x128, .f32⟩ : BufTy).Contents (Elt F)),
    StableHlo.binary main_v19 main_v20 main_v21 ((fun l r => Host.dotGeneral dot_S64000x128_S128x128_S64000x128_1_0_0_1_n_n none l r) : (⟨S64000x128, .f32⟩ : BufTy).Contents (Elt F) → (⟨S128x128, .f32⟩ : BufTy).Contents (Elt F) → (⟨S64000x128, .f32⟩ : BufTy).Contents (Elt F)),
    StableHlo.reshape main_arg0 main_v22 rfl shapeCasts_S1088000x128_S4x272000x128,
    StableHlo.unary main_v22 main_v23 ((extractStridedSlice S4x16000x128 ![0, 0, 0] · slices_S4x272000x128_S4x16000x128_0_0_0) : (⟨S4x272000x128, .f32⟩ : BufTy).Contents (Elt F) → (⟨S4x16000x128, .f32⟩ : BufTy).Contents (Elt F)),
    StableHlo.reshape main_v23 main_v24 rfl shapeCasts_S4x16000x128_S64000x128,
    StableHlo.unary main_arg4 main_v25 ((transpose S128x128 [1, 0] · transposes_S128x128_S128x128_1_0) : (⟨S128x128, .f32⟩ : BufTy).Contents (Elt F) → (⟨S128x128, .f32⟩ : BufTy).Contents (Elt F)),
    StableHlo.binary main_v24 main_v25 main_v26 ((fun l r => Host.dotGeneral dot_S64000x128_S128x128_S64000x128_1_0_0_1_n_n none l r) : (⟨S64000x128, .f32⟩ : BufTy).Contents (Elt F) → (⟨S128x128, .f32⟩ : BufTy).Contents (Elt F) → (⟨S64000x128, .f32⟩ : BufTy).Contents (Elt F)),
    StableHlo.unary main_arg5 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S64000x128 ![0, 1] bcast_S1x128_S64000x128_0_1 : (⟨S1x128, .f32⟩ : BufTy).Contents (Elt F) → (⟨S64000x128, .f32⟩ : BufTy).Contents (Elt F)),
    StableHlo.binary main_v26 main_v28 main_v29 (addf : (⟨S64000x128, .f32⟩ : BufTy).Contents (Elt F) → (⟨S64000x128, .f32⟩ : BufTy).Contents (Elt F) → (⟨S64000x128, .f32⟩ : BufTy).Contents (Elt F)),
    StableHlo.binary main_v29 main_v21 main_v30 (addf : (⟨S64000x128, .f32⟩ : BufTy).Contents (Elt F) → (⟨S64000x128, .f32⟩ : BufTy).Contents (Elt F) → (⟨S64000x128, .f32⟩ : BufTy).Contents (Elt F)) ]

set_option maxRecDepth 2048 in
/-- The program is that chain: the two functions unfolded at their calls, sequencing reassociated. -/
theorem main_eq (c : Dev nD) : main (F := F) c = seq ops := by
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., binary_bufs_sub .., reshape_bufs_sub .., unary_bufs_sub .., reshape_bufs_sub .., unary_bufs_sub .., binary_bufs_sub .., unary_bufs_sub .., unary_bufs_sub .., binary_bufs_sub .., binary_bufs_sub ..⟩

/-- The chain's value at the result buffer is `result` of the arguments. -/
theorem out_eq (V : Valuation τ sig (Elt F)) :
    after ops V (main_v30 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem main_arg0_eq (V : Valuation τ sig (Elt F)) : after ops V (main_arg0 : DevRef τ sig) = V (main_arg0 : DevRef τ sig) := by
  after_results_simp
theorem main_arg1_eq (V : Valuation τ sig (Elt F)) : after ops V (main_arg1 : DevRef τ sig) = V (main_arg1 : DevRef τ sig) := by
  after_results_simp
theorem main_arg2_eq (V : Valuation τ sig (Elt F)) : after ops V (main_arg2 : DevRef τ sig) = V (main_arg2 : DevRef τ sig) := by
  after_results_simp
theorem main_arg3_eq (V : Valuation τ sig (Elt F)) : after ops V (main_arg3 : DevRef τ sig) = V (main_arg3 : DevRef τ sig) := by
  after_results_simp
theorem main_arg4_eq (V : Valuation τ sig (Elt F)) : after ops V (main_arg4 : DevRef τ sig) = V (main_arg4 : DevRef τ sig) := by
  after_results_simp
theorem main_arg5_eq (V : Valuation τ sig (Elt F)) : after ops V (main_arg5 : DevRef τ sig) = V (main_arg5 : DevRef τ sig) := by
  after_results_simp

/-- Every execution of the reference terminates with the result buffer at `result` of the arguments as launched,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v30).trans (out_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _)⟩)
    (run_seq scopedRefs_eq scopedSems_eq defs main (fun _ => ops) main_eq (fun _ => ops_sub) m ρ)

end Cert.ReferenceIdeal.Hand

end
-- ==== Proof.RefValue.lean ====
/-
  The reference's result is the layer of the aggregated rows and the destination rows.

  Read at (p, q), the reference's tail is the self product at (p, q) plus the bias row's entry q, plus the product of
  the neighbour rows divided by 16 at (p, q); both products are the plain sums over the contracted column and the
  division by 16 is the multiplication by 1/16, which is the layer's entry.  The bias reaches the sum through two
  broadcasts, first to one row and then down the 64000 rows, so at (p, q) it is the row's entry q; the divisor is the
  literal 16.0 at every index.
-/
import proofs.«113063_j54494545052116_1_alg».proof.Proof.RefRun
import proofs.«113063_j54494545052116_1_alg».proof.Proof.MeanLayer
import Idealize.ShloMosaic.Lib.Pipeline.Value

noncomputable section

namespace Cert.ReferenceIdeal.Hand

open Cert.ReferenceIdeal Cert.ReferenceIdeal.Gen Idealize.ShloMosaic Idealize.ShloMosaic.ValueIdx

/-- The reference's result as the layer of its host-computed arrays, the bias as the broadcast row. -/
theorem result_eq (x : (⟨S1088000x128, .f32⟩ : BufTy).Contents (Elt Ideal)) (row col : (⟨S1024000, .i32⟩ : BufTy).Contents (Elt Ideal))
    (wn ws : (⟨S128x128, .f32⟩ : BufTy).Contents (Elt Ideal)) (b : (⟨S128, .f32⟩ : BufTy).Contents (Elt Ideal)) :
    result (F := Ideal) x row col wn ws b
      = Cert.MeanLayer.layer (agg x row col) (fdst x) (transpose S128x128 [1, 0] wn transposes_S128x128_S128x128_1_0)
          (transpose S128x128 [1, 0] ws transposes_S128x128_S128x128_1_0) (broadcastInDim S1x128 ![1] bcast_S128_S1x128_1 b) := by
  funext i
  obtain ⟨p, q, rfl⟩ : ∃ (p : Fin 64000) (q : Fin 128), i = ix2 p q := ⟨i 0, i 1, eq_ix2 i⟩
  unfold result
  exact Cert.MeanLayer.array_entry dot_S64000x128_S128x128_S64000x128_1_0_0_1_n_n rfl rfl rfl rfl rfl rfl
    (agg x row col) (fdst x) (transpose S128x128 [1, 0] wn transposes_S128x128_S128x128_1_0)
    (transpose S128x128 [1, 0] ws transposes_S128x128_S128x128_1_0)
    (broadcastInDim S64000x128 ![0, 1] bcast_S1x128_S64000x128_0_1 (broadcastInDim S1x128 ![1] bcast_S128_S1x128_1 b))
    (broadcastInDim S64000x128 ![] bcast_S_S64000x128 (constant (F := Ideal) S_ .f32 0x41800000#32))
    (broadcastInDim S1x128 ![1] bcast_S128_S1x128_1 b)
    (fun p q => broadcastInDim_apply _ bcast_S1x128_S64000x128_0_1 _ (ix2 p q) (ix2 (0 : Fin 1) q)
      (fun a => match a with | ⟨0, _⟩ => rfl | ⟨1, _⟩ => rfl))
    (fun i => broadcastInDim_apply _ bcast_S_S64000x128 _ i ix0 (fun a => a.elim0)) p q

end Cert.ReferenceIdeal.Hand

end
-- ==== Proof.BiasRow.lean ====
/-
  The bias as one row, two ways.

  The kernel's program reshapes the 128 biases into a 1-by-128 array; the reference broadcasts them into a 1-by-128
  array along its second axis.  Entry (0, q) of either is bias q: the reshape keeps row-major positions, and position
  q of the row is position q of the vector; the broadcast reads the vector at the index's second coordinate.
-/
import Idealize.ShloMosaic.Lib.Pipeline.Value
import Idealize.ShloMosaic.Lib.ValueIdx

noncomputable section

namespace Cert.BiasRow

open Idealize.ShloMosaic Idealize.ShloMosaic.ValueIdx

/-- The reshaped bias vector and the broadcast one are the same row. -/
theorem reshape_eq_broadcast {α : Type} (b : (⟨1, ![128]⟩ : Shape).Idx → α)
    (hc : (⟨1, ![128]⟩ : Shape).ShapeCasts ⟨2, ![1, 128]⟩)
    (hb : (⟨1, ![128]⟩ : Shape).BroadcastsInDim ⟨2, ![1, 128]⟩ (![1] : Fin 1 → Fin 2)) :
    shapeCast ⟨2, ![1, 128]⟩ b hc = broadcastInDim ⟨2, ![1, 128]⟩ (![1] : Fin 1 → Fin 2) hb b := by
  funext j
  obtain ⟨z, q, rfl⟩ : ∃ (z : Fin 1) (q : Fin 128), j = ix2 z q := ⟨j 0, j 1, eq_ix2 j⟩
  have hz : z.val = 0 := by omega
  refine (shapeCast_apply b hc (ix2 z q) (ix1 q) ?_).trans (broadcastInDim_apply _ hb b (ix2 z q) (ix1 q) ?_).symm
  · rw [Shape.rowMajor_val_one, Shape.rowMajor_val_two]
    show q.val = z.val * 128 + q.val
    omega
  · intro a
    match a with
    | ⟨0, _⟩ => rfl

end Cert.BiasRow

end
-- ==== Proof.lean ====
/-
  The certificate of the mean-aggregation layer.

  The kernel's program and the reference compute the same host prefix of the arguments: each edge's partition, its
  source row in the features and its destination row among the seeds, the gathered source rows summed into their
  destination rows, the destination rows' own features, the two weight matrices transposed.  On these the kernel
  computes, block of 4000 rows by block, and the reference on the whole arrays, the layer

      out(p, q) = (∑ k, f(p, k) · ws(k, q) + b(q)) + ∑ k, (h(p, k) / 16) · wn(k, q)

  the kernel multiplying by the literal 0.0625 where the reference divides by the literal 16.0: on the extended reals
  these are one operation, the products are the same sums in the same order, and the two layouts of the bias, a reshape
  to one row and a broadcast to one row, are the same row.  So both result arrays are one function of the arguments.
  The two frames of the kernel's programs are the generated ones; the reference's frame is its run with the result
  dropped; the idealization rewrote nothing.
-/
import proofs.«113063_j54494545052116_1_alg».proof.Defs
import proofs.«113063_j54494545052116_1_alg».proof.Proof.Gen.Kernel
import proofs.«113063_j54494545052116_1_alg».proof.Proof.Gen.Kernel.Skeleton
import proofs.«113063_j54494545052116_1_alg».proof.Proof.Gen.Kernel.Launch
import proofs.«113063_j54494545052116_1_alg».proof.Proof.Gen.Kernel.Points
import proofs.«113063_j54494545052116_1_alg».proof.Proof.Gen.Kernel.Frame
import proofs.«113063_j54494545052116_1_alg».proof.Proof.Gen.KernelIdeal
import proofs.«113063_j54494545052116_1_alg».proof.Proof.Gen.KernelIdeal.Skeleton
import proofs.«113063_j54494545052116_1_alg».proof.Proof.Gen.KernelIdeal.Launch
import proofs.«113063_j54494545052116_1_alg».proof.Proof.Gen.KernelIdeal.Points
import proofs.«113063_j54494545052116_1_alg».proof.Proof.Gen.KernelIdeal.Frame
import proofs.«113063_j54494545052116_1_alg».proof.Proof.Gen.KernelIdeal.Value
import proofs.«113063_j54494545052116_1_alg».proof.Proof.Gen.ReferenceIdeal
import proofs.«113063_j54494545052116_1_alg».proof.Proof.Gen.Pre_finite_inputs
import proofs.«113063_j54494545052116_1_alg».proof.Proof.KernelValue
import proofs.«113063_j54494545052116_1_alg».proof.Proof.RefRun
import proofs.«113063_j54494545052116_1_alg».proof.Proof.RefValue
import proofs.«113063_j54494545052116_1_alg».proof.Proof.BiasRow
import Idealize.ShloMosaic.Adequacy
import Idealize.ShloMosaic.Init

noncomputable section

namespace Cert.Proof

open Idealize.ShloMosaic Idealize.ShloMosaic.TcCoe Idealize.SL.Sem

/-- The aggregation is one function in both programs: the same operations over the same literals. -/
theorem agg_same (x : (⟨Cert.KernelIdeal.S1088000x128, .f32⟩ : BufTy).Contents (Elt Ideal))
    (row col : (⟨Cert.KernelIdeal.S1024000, .i32⟩ : BufTy).Contents (Elt Ideal)) :
    Cert.ReferenceIdeal.Hand.agg (F := Ideal) x row col = Cert.KernelIdeal.Hand.agg (F := Ideal) x row col := rfl

/-- So are the destination rows. -/
theorem fdst_same (x : (⟨Cert.KernelIdeal.S1088000x128, .f32⟩ : BufTy).Contents (Elt Ideal)) :
    Cert.ReferenceIdeal.Hand.fdst (F := Ideal) x = Cert.KernelIdeal.Hand.fdst (F := Ideal) x := rfl

/-- The reference's result is the kernel's: one layer of the same arrays, the bias row laid out two ways. -/
theorem result_same (x : (⟨Cert.KernelIdeal.S1088000x128, .f32⟩ : BufTy).Contents (Elt Ideal))
    (row col : (⟨Cert.KernelIdeal.S1024000, .i32⟩ : BufTy).Contents (Elt Ideal))
    (wn ws : (⟨Cert.KernelIdeal.S128x128, .f32⟩ : BufTy).Contents (Elt Ideal)) (b : (⟨Cert.KernelIdeal.S128, .f32⟩ : BufTy).Contents (Elt Ideal)) :
    Cert.ReferenceIdeal.Hand.result (F := Ideal) x row col wn ws b = Cert.KernelIdeal.Hand.result x row col wn ws b := by
  rw [Cert.ReferenceIdeal.Hand.result_eq, agg_same, fdst_same]
  unfold Cert.KernelIdeal.Hand.result
  rw [Cert.BiasRow.reshape_eq_broadcast b Cert.KernelIdeal.Gen.shapeCasts_S128_S1x128 Cert.ReferenceIdeal.Gen.bcast_S128_S1x128_1]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run (F := Ideal) m ρ)

/-- Both programs end with the result array at one function of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5⟩ := hagree c
  rw [a0, a1, a2, a3, a4, a5]
  exact result_same _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
